-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x512x64 : Shape := ⟨4, ![2, 8, 512, 64]⟩
abbrev S2x8x512x512 : Shape := ⟨4, ![2, 8, 512, 512]⟩
abbrev S1x1x128x64 : Shape := ⟨4, ![1, 1, 128, 64]⟩
abbrev S1x1x128x128 : Shape := ⟨4, ![1, 1, 128, 128]⟩
abbrev S128x64 : Shape := ⟨2, ![128, 64]⟩
abbrev S1x128x64 : Shape := ⟨3, ![1, 128, 64]⟩
abbrev S128x1x64 : Shape := ⟨3, ![128, 1, 64]⟩
abbrev S128x128x64 : Shape := ⟨3, ![128, 128, 64]⟩
abbrev S128x128 : Shape := ⟨2, ![128, 128]⟩

abbrev nBuf : Space → Nat
  | .hbm => 5
  | .vmem => 6
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x512x64, .f32⟩
  | .hbm, ⟨3, _⟩ => ⟨S2x8x512x64, .f32⟩
  | .hbm, ⟨4, _⟩ => ⟨S2x8x512x512, .f32⟩
  | .local _ .vmem, ⟨0, _⟩ => ⟨S1x1x128x64, .f32⟩
  | .local _ .vmem, ⟨1, _⟩ => ⟨S1x1x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x128, .f32⟩
  | .local _ .vmem, ⟨5, _⟩ => ⟨S1x1x128x128, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 4, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

class Facts₀ : Prop where
  transposes_S2x512x8x64_S2x8x512x64_0_2_1_3 : S2x512x8x64.Transposes [0, 2, 1, 3] S2x8x512x64
  inb_S1x1x128x64_S1x1x128x64_0_0_0_0 : ∀ a, (![0, 0, 0, 0] : Fin 4 → Nat) a + S1x1x128x64.size a ≤ S1x1x128x64.size a
  h_S1x1x128x64 : 0 < S1x1x128x64.numel
  shapeCasts_S1x1x128x64_S128x64 : S1x1x128x64.ShapeCasts S128x64
  shapeCasts_S128x64_S1x128x64 : S128x64.ShapeCasts S1x128x64
  shapeCasts_S128x64_S128x1x64 : S128x64.ShapeCasts S128x1x64
  broadcasts_S1x128x64_S128x128x64 : S1x128x64.Broadcasts S128x128x64
  broadcasts_S128x1x64_S128x128x64 : S128x1x64.Broadcasts S128x128x64
  reduces_S128x128x64_S128x128 : S128x128x64.Reduces [2] S128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x64.size a ≤ S2x8x512x64.size a
  hwx0_0 : ∀ i : grid0.Coords, EltTy.bits .f32 = 32 ∨ (Rect.block (s := S2x8x512x64) S1x1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x64.size a ≤ S2x8x512x64.size a
  hwx0_1 : ∀ i : grid0.Coords, EltTy.bits .f32 = 32 ∨ (Rect.block (s := S2x8x512x64) S1x1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x128.size a ≤ S2x8x512x512.size a
  hwx0_2 : ∀ i : grid0.Coords, EltTy.bits .f32 = 32 ∨ (Rect.block (s := S2x8x512x512) S1x1x128x128.size (cc0_transform_2 i) (hinb0_2 i)).WholeWords (EltTy.packing .f32)

variable [Facts₀]

abbrev win0_0 : Pipeline.Window sig grid0 :=
  Pipeline.Window.ofSpec (Memref.whole main_v0) S1x1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x1x512x8x64 : Shape := ⟨5, ![2, 1, 512, 8, 64]⟩
abbrev S2x512x1x8x64 : Shape := ⟨5, ![2, 512, 1, 8, 64]⟩
abbrev S2x512x512x8x64 : Shape := ⟨5, ![2, 512, 512, 8, 64]⟩
abbrev S_ : Shape := ⟨0, ![]⟩
abbrev S2x512x512x8 : Shape := ⟨4, ![2, 512, 512, 8]⟩
abbrev S2x8x512x512 : Shape := ⟨4, ![2, 8, 512, 512]⟩

abbrev nBuf : Space → Nat
  | .hbm => 14
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x1x512x8x64, .f32⟩
  | .hbm, ⟨3, _⟩ => ⟨S2x512x1x8x64, .f32⟩
  | .hbm, ⟨4, _⟩ => ⟨S2x512x512x8x64, .f32⟩
  | .hbm, ⟨5, _⟩ => ⟨S2x512x512x8x64, .f32⟩
  | .hbm, ⟨6, _⟩ => ⟨S2x512x512x8x64, .f32⟩
  | .hbm, ⟨7, _⟩ => ⟨S2x512x512x8x64, .f32⟩
  | .hbm, ⟨8, _⟩ => ⟨S_, .f32⟩
  | .hbm, ⟨9, _⟩ => ⟨S2x512x512x8, .f32⟩
  | .hbm, ⟨10, _⟩ => ⟨S_, .f32⟩
  | .hbm, ⟨11, _⟩ => ⟨S2x512x512x8, .f32⟩
  | .hbm, ⟨12, _⟩ => ⟨S2x512x512x8, .f32⟩
  | .hbm, ⟨13, _⟩ => ⟨S2x8x512x512, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S2x512x8x64_S2x1x512x8x64_0_2_3_4 : S2x512x8x64.BroadcastsInDim S2x1x512x8x64 (![0, 2, 3, 4] : Fin 4 → Fin S2x1x512x8x64.rank)
  bcast_S2x512x8x64_S2x512x1x8x64_0_1_3_4 : S2x512x8x64.BroadcastsInDim S2x512x1x8x64 (![0, 1, 3, 4] : Fin 4 → Fin S2x512x1x8x64.rank)
  bcast_S2x1x512x8x64_S2x512x512x8x64_0_1_2_3_4 : S2x1x512x8x64.BroadcastsInDim S2x512x512x8x64 (![0, 1, 2, 3, 4] : Fin 5 → Fin S2x512x512x8x64.rank)
  bcast_S2x512x1x8x64_S2x512x512x8x64_0_1_2_3_4 : S2x512x1x8x64.BroadcastsInDim S2x512x512x8x64 (![0, 1, 2, 3, 4] : Fin 5 → Fin S2x512x512x8x64.rank)
  reducesTo_S2x512x512x8x64_S2x512x512x8_d4 : S2x512x512x8x64.ReducesTo [4] S2x512x512x8
  h_S_ : 0 < S_.numel
  bcast_S_S2x512x512x8 : S_.BroadcastsInDim S2x512x512x8 (![] : Fin 0 → Fin S2x512x512x8.rank)
  transposes_S2x512x512x8_S2x8x512x512_0_3_1_2 : S2x512x512x8.Transposes [0, 3, 1, 2] S2x8x512x512

variable [Facts₀]

class Facts : Prop extends Facts₀ where

variable [Facts]
-- ==== Proof.Scores.lean ====
/-
  L1 attention scores, as one function of the two arguments.

  The arguments `q` and `k` are laid out [batch, position, head, feature] = [2, 512, 8, 64]; the result is laid out
  [batch, head, key position, query position] = [2, 8, 512, 512]. Its entry at `(b, h, j, i)` is

      -1/8 · ∑_{d < 64} |q[b, i, h, d] − k[b, j, h, d]|

  on the extended reals, the factor -1/8 = -1/√64 kept as the f32 word `0xBE000000` that both programs carry (the
  same word on both sides, so it is never evaluated), and the absolute value of an extended real `z` read as
  `max z (−z)`, which is what the float absolute value is at the exact instance.
-/
import Idealize.ShloMosaic.PureOps.Ideal
import Idealize.ShloMosaic.Lib.ValueIdx

noncomputable section

open scoped BigOperators

namespace Cert.L1Attn

open Idealize.ShloMosaic Idealize.ShloMosaic.ValueIdx

/-- The L1 distance of two extended reals: the larger of their difference and its negation. -/
def dist1 (x y : EReal) : EReal := max (x - y) (-(x - y))

/-- One score: for batch `b`, head `h`, key position `j` and query position `i`, the word `0xBE000000` (−1/8) times the
    sum over the 64 features of the L1 distance between the query row and the key row. -/
def score (q k : (⟨4, ![2, 512, 8, 64]⟩ : Shape).Idx → EReal) (b : Fin 2) (h : Fin 8) (j i : Fin 512) : EReal :=
  Ideal.ofBits .f32 0xBE000000#32 * ∑ d : Fin 64, dist1 (q (ix4 b i h d)) (k (ix4 b j h d))

/-- The whole result array [2, 8, 512, 512]: `score` at the index's four coordinates. -/
def attn (q k : (⟨4, ![2, 512, 8, 64]⟩ : Shape).Idx → EReal) : (⟨4, ![2, 8, 512, 512]⟩ : Shape).Idx → EReal :=
  fun o => score q k (o 0) (o 1) (o 2) (o 3)

theorem attn_ix4 (q k : (⟨4, ![2, 512, 8, 64]⟩ : Shape).Idx → EReal) (b : Fin 2) (h : Fin 8) (j i : Fin 512) :
    attn q k (ix4 b h j i) = score q k b h j i := rfl

end Cert.L1Attn

end
-- ==== Proof.RefScores.lean ====
/-
  The reference program computes the scores.

  Read one operation at a time, the reference's result at `(b, h, j, i)` is the transpose's operand at `(b, j, i, h)`,
  which is the word `0xBE000000` times (the initial value `0` plus the sum over the feature `d` of) the absolute
  difference of the two broadcast operands at `(b, j, i, h, d)`; the first broadcast reads `q` at `(b, i, h, d)`, the
  second `k` at `(b, j, h, d)`. That is `score q k b h j i` once the leading `0 +` is dropped.
-/
import proofs.«145143_j36859409334845_1_alg».proof.Proof.Gen.ReferenceIdeal.Read
import proofs.«145143_j36859409334845_1_alg».proof.Proof.Scores
import Idealize.ShloMosaic.PureOps.Ideal.Laws

noncomputable section

open scoped BigOperators

namespace Cert.L1Attn

open Idealize.ShloMosaic Idealize.ShloMosaic.ValueIdx Cert.ReferenceIdeal Cert.ReferenceIdeal.Read

/-- Where the first broadcast operand comes from: entry `(b, j, i, h, d)` of the five-axis difference reads `q` at
    `(b, i, h, d)`. -/
theorem q_index (b : Fin 2) (h : Fin 8) (j i : Fin 512) (d : Fin 64) :
    idx_main_v0 (idx_main_v2 (idx_main_v6 (idx_main_v9 (ix4 b h j i)) d)) = ix4 b i h d :=
  funext fun a => Fin.ext (by match a with | ⟨0, _⟩ => rfl | ⟨1, _⟩ => rfl | ⟨2, _⟩ => rfl | ⟨3, _⟩ => rfl)

/-- Where the second comes from: it reads `k` at `(b, j, h, d)`. -/
theorem k_index (b : Fin 2) (h : Fin 8) (j i : Fin 512) (d : Fin 64) :
    idx_main_v1 (idx_main_v3 (idx_main_v6 (idx_main_v9 (ix4 b h j i)) d)) = ix4 b j h d :=
  funext fun a => Fin.ext (by match a with | ⟨0, _⟩ => rfl | ⟨1, _⟩ => rfl | ⟨2, _⟩ => rfl | ⟨3, _⟩ => rfl)

/-- The reference's result array is `attn` of its two arguments. -/
theorem ref_attn (q k : (⟨S2x512x8x64, .f32⟩ : BufTy).Contents (Elt Ideal)) :
    val_main_v9 (F := Ideal) q k = attn q k := by
  funext o
  obtain ⟨b, h, j, i, rfl⟩ : ∃ (b : Fin 2) (h : Fin 8) (j i : Fin 512), o = ix4 b h j i :=
    ⟨o 0, o 1, o 2, o 3, eq_ix4 o⟩
  rw [attn_ix4, val_main_v9_apply, val_main_v8_apply, val_main_v7_apply, val_main_cst_0_apply, val_main_v6_apply,
    val_main_cst_apply]
  simp only [val_main_v5_apply, val_main_v4_apply, val_main_v3_apply, val_main_v2_apply, val_main_v1_apply,
    val_main_v0_apply, q_index, k_index]
  show Ideal.ofBits .f32 0xBE000000#32 * (Ideal.ofBits .f32 0x00000000#32 + ∑ d : Fin 64, dist1 (q (ix4 b i h d)) (k (ix4 b j h d))) = _
  rw [Ideal.ofBits_zero_f32, zero_add]
  rfl

end Cert.L1Attn

end
-- ==== Proof.Block.lean ====
/-
  One grid point's block of scores, from the two blocks the body loads.

  The body loads a query block and a key block, each [1, 1, 128, 64] (128 positions by 64 features), views the query
  block as [1, 128, 64] and the key block as [128, 1, 64], broadcasts both to [128 key rows, 128 query rows, 64],
  subtracts, takes absolute values, sums over the last axis and scales by the word `0xBE000000`; the result is stored
  as a [1, 1, 128, 128] block. So the block's entry at (key row `j`, query row `i`) is

      0xBE000000 · ∑_{d < 64} |Q[i, d] − K[j, d]| .
-/
import proofs.«145143_j36859409334845_1_alg».proof.Proof.Gen.KernelIdeal.Value
import proofs.«145143_j36859409334845_1_alg».proof.Proof.Scores
import Idealize.ShloMosaic.PureOps.Ideal.Laws
import Idealize.ShloMosaic.Lib.Pipeline.Value
import Idealize.ShloMosaic.Lib.ValueIdx

noncomputable section

open scoped BigOperators

namespace Cert.L1Attn

open Idealize.ShloMosaic Idealize.ShloMosaic.ValueIdx Cert.KernelIdeal Cert.KernelIdeal.Gen

/-- The query block broadcast along the key rows: its entry at (anything, `i`, `d`) is the query block's row `i`,
    feature `d`. -/
theorem qrows_apply (Q : FVec Ideal S1x1x128x64 .f32) (x : S128x128x64.Idx) (i : Fin 128) (d : Fin 64)
    (hi : (x 1).val = i.val) (hd : (x 2).val = d.val) :
    broadcastTo S128x128x64 (shapeCast S1x128x64 (shapeCast S128x64 Q shapeCasts_S1x1x128x64_S128x64)
      shapeCasts_S128x64_S1x128x64) broadcasts_S1x128x64_S128x128x64 x = Q (ix4 (0 : Fin 1) (0 : Fin 1) i d) := by
  refine (broadcastTo_apply _ _ x (ix3 (0 : Fin 1) i d) (fun a => ?_)).trans ?_
  · match a with
    | ⟨0, _⟩ => show (0 : Nat) = if (1 : Nat) = 1 then 0 else _; rw [if_pos rfl]
    | ⟨1, _⟩ => show i.val = if (128 : Nat) = 1 then 0 else _; rw [if_neg (by decide)]; exact hi.symm
    | ⟨2, _⟩ => show d.val = if (64 : Nat) = 1 then 0 else _; rw [if_neg (by decide)]; exact hd.symm
  refine (shapeCast_apply _ _ (ix3 (0 : Fin 1) i d) (ix2 i d) (by
    rw [Shape.rowMajor_val_two, Shape.rowMajor_val_three]
    show i.val * 64 + d.val = ((0 : Nat) * 128 + i.val) * 64 + d.val
    omega)).trans ?_
  exact shapeCast_apply _ _ (ix2 i d) (ix4 (0 : Fin 1) (0 : Fin 1) i d) (by
    rw [Shape.rowMajor_val_four, Shape.rowMajor_val_two]
    show (((0 : Nat) * 1 + 0) * 128 + i.val) * 64 + d.val = i.val * 64 + d.val
    omega)

/-- The key block broadcast along the query rows: its entry at (`j`, anything, `d`) is the key block's row `j`,
    feature `d`. -/
theorem krows_apply (K : FVec Ideal S1x1x128x64 .f32) (x : S128x128x64.Idx) (j : Fin 128) (d : Fin 64)
    (hj : (x 0).val = j.val) (hd : (x 2).val = d.val) :
    broadcastTo S128x128x64 (shapeCast S128x1x64 (shapeCast S128x64 K shapeCasts_S1x1x128x64_S128x64)
      shapeCasts_S128x64_S128x1x64) broadcasts_S128x1x64_S128x128x64 x = K (ix4 (0 : Fin 1) (0 : Fin 1) j d) := by
  refine (broadcastTo_apply _ _ x (ix3 j (0 : Fin 1) d) (fun a => ?_)).trans ?_
  · match a with
    | ⟨0, _⟩ => show j.val = if (128 : Nat) = 1 then 0 else _; rw [if_neg (by decide)]; exact hj.symm
    | ⟨1, _⟩ => show (0 : Nat) = if (1 : Nat) = 1 then 0 else _; rw [if_pos rfl]
    | ⟨2, _⟩ => show d.val = if (64 : Nat) = 1 then 0 else _; rw [if_neg (by decide)]; exact hd.symm
  refine (shapeCast_apply _ _ (ix3 j (0 : Fin 1) d) (ix2 j d) (by
    rw [Shape.rowMajor_val_two, Shape.rowMajor_val_three]
    show j.val * 64 + d.val = (j.val * 1 + (0 : Nat)) * 64 + d.val
    omega)).trans ?_
  exact shapeCast_apply _ _ (ix2 j d) (ix4 (0 : Fin 1) (0 : Fin 1) j d) (by
    rw [Shape.rowMajor_val_four, Shape.rowMajor_val_two]
    show (((0 : Nat) * 1 + 0) * 128 + j.val) * 64 + d.val = j.val * 64 + d.val
    omega)

/-- What the body leaves in the output block, entry by entry: at key row `j` and query row `i`, the scale word times
    the sum over the features of the L1 distance between the query block's row `i` and the key block's row `j`. -/
theorem block_apply (Q K : FVec Ideal S1x1x128x64 .f32) (a b : Fin 1) (j i : Fin 128) :
    Value.E2 (F := Ideal) Q K (ix4 a b j i)
      = Ideal.ofBits .f32 0xBE000000#32
          * ∑ d : Fin 64, dist1 (Q (ix4 (0 : Fin 1) (0 : Fin 1) i d)) (K (ix4 (0 : Fin 1) (0 : Fin 1) j d)) := by
  show Ideal.ofBits .f32 0xBE000000#32 * _ = _
  refine congrArg (Ideal.ofBits .f32 0xBE000000#32 * ·) ?_
  refine (Ideal.multiReduction_add_single _ 0x00000000#32 reduces_S128x128x64_S128x128 (.inl rfl) rfl _).trans ?_
  refine Finset.sum_congr rfl fun d _ => ?_
  show max (_ - _) (-(_ - _)) = dist1 _ _
  unfold dist1
  rw [qrows_apply Q _ i d rfl rfl, krows_apply K _ j d rfl rfl]

end Cert.L1Attn

end
-- ==== Proof.Array.lean ====
/-
  From blocks to the whole result array.

  The grid is [2, 8, 4, 4]: point `(b, h, kt, qt)` stages rows `128·qt … 128·qt + 127` of batch `b`, head `h` of the
  head-major query array, rows `128·kt …` of the head-major key array, and writes back the [128, 128] block at
  rows `128·kt …`, columns `128·qt …` of slice `(b, h)` of the result. The head-major arrays are the host's transposes of
  the arguments, so a staged row is a row of `q` or `k` with its position and head coordinates swapped back. Each
  written block is therefore the corresponding block of `attn q k`, the 256 blocks tile the result, and the result
  array ends as `attn q k`.
-/
import proofs.«145143_j36859409334845_1_alg».proof.Proof.Block
import Idealize.ShloMosaic.Lib.StableHlo.Run

noncomputable section

open scoped BigOperators

namespace Cert.L1Attn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The body's output block, entry by entry, over the two staged blocks as variables: at key row `j`, query row `i`
    the scale word times the summed L1 distance of the first block's row `i` and the second block's row `j`. -/
theorem out_apply (X0 X1 : Vec Ideal S1x1x128x64 .f32) (a b : Fin 1) (j i : Fin 128) :
    out0_2 X0 X1 (ix4 a b j i) = Ideal.ofBits .f32 0xBE000000#32
      * ∑ d : Fin 64, dist1 (X0 (ix4 (0 : Fin 1) (0 : Fin 1) i d)) (X1 (ix4 (0 : Fin 1) (0 : Fin 1) j d)) := by
  have e0 : View.ld X0 r0_0 = X0 := View.ld_unit_zero (S := S1x1x128x64) zero_offsets _ X0
  have e1 : View.ld X1 r0_0 = X1 := View.ld_unit_zero (S := S1x1x128x64) zero_offsets _ X1
  unfold out0_2
  rw [e0, e1, Value.canon2_eq]
  exact block_apply X0 X1 a b j i

/-- The head-major query array the region finds is the host's transpose of `q`. -/
theorem V_q (c : Dev nD) : (V m c main_v0 : S2x8x512x64.Idx → EReal)
    = transpose S2x8x512x64 [0, 2, 1, 3] (m ((c : Thread nD τ).loc main_arg0)) transposes_S2x512x8x64_S2x8x512x64_0_2_1_3 := by
  dsimp only [Gen.V, Gen.hostOps0]; after_results

/-- The head-major key array the region finds is the host's transpose of `k`. -/
theorem V_k (c : Dev nD) : (V m c main_v1 : S2x8x512x64.Idx → EReal)
    = transpose S2x8x512x64 [0, 2, 1, 3] (m ((c : Thread nD τ).loc main_arg1)) transposes_S2x512x8x64_S2x8x512x64_0_2_1_3 := by
  dsimp only [Gen.V, Gen.hostOps0]; after_results

/-- The relations between the three printed index maps, decided over the 256 grid points: the query window follows the
    output's batch, head and column-block coordinates, the key window its batch, head and row-block coordinates, and
    neither moves along the feature axis; the output's block coordinates stay inside [2, 8, 4, 4]. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (3 : Fin 4) ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = win0_2.index t (2 : Fin 4) ∧ win0_1.index t (3 : Fin 4) = 0
    ∧ win0_2.index t (0 : Fin 4) ≤ 1 ∧ win0_2.index t (1 : Fin 4) ≤ 7
    ∧ win0_2.index t (2 : Fin 4) ≤ 3 ∧ win0_2.index t (3 : Fin 4) ≤ 3 :=
  (by decide +kernel : ∀ t : Fin grid0.N, _)

/-- Every block coordinate of the result is some grid point's. -/
theorem idx_onto : ∀ (b : Fin 2) (h : Fin 8) (kt qt : Fin 4), ∃ t : Fin cfg0.N, win0_2.index t = ![b.val, h.val, kt.val, qt.val] :=
  (by decide +kernel : ∀ (b : Fin 2) (h : Fin 8) (kt qt : Fin 4), ∃ t : Fin grid0.N, win0_2.index t = ![b.val, h.val, kt.val, qt.val])

/-- An entry of the staged query block is an entry of `q`: block row `x 2` at point `t` is position
    `128 · (column block) + x 2` of the point's batch and head. -/
theorem qblk_apply (c : Dev nD) (t : Fin cfg0.N) (x : S1x1x128x64.Idx) (k : S2x512x8x64.Idx)
    (h0 : (k 0).val = win0_0.index t (0 : Fin 4)) (h1 : (k 2).val = win0_0.index t (1 : Fin 4))
    (h2 : (k 1).val = win0_0.index t (2 : Fin 4) * 128 + (x 2).val) (h3 : (k 3).val = win0_0.index t (3 : Fin 4) * 64 + (x 3).val) :
    (iblk m c 0 t : Vec Ideal S1x1x128x64 .f32) x = (m ((c : Thread nD τ).loc main_arg0) : S2x512x8x64.Idx → EReal) k := by
  have hx0 : (x 0).val < 1 := (x 0).isLt
  have hx1 : (x 1).val < 1 := (x 1).isLt
  unfold iblk
  rw [View.read_apply]
  show V m c main_v0 _ = _
  rw [V_q]
  refine transpose_apply _ _ _ _ k (fun a => ?_)
  match a with
  | ⟨0, _⟩ => show (k 0).val = win0_0.index t (0 : Fin 4) * 1 + 1 * (x 0).val; omega
  | ⟨1, _⟩ => show (k 2).val = win0_0.index t (1 : Fin 4) * 1 + 1 * (x 1).val; omega
  | ⟨2, _⟩ => show (k 1).val = win0_0.index t (2 : Fin 4) * 128 + 1 * (x 2).val; omega
  | ⟨3, _⟩ => show (k 3).val = win0_0.index t (3 : Fin 4) * 64 + 1 * (x 3).val; omega

/-- An entry of the staged key block is an entry of `k`, likewise with the row block. -/
theorem kblk_apply (c : Dev nD) (t : Fin cfg0.N) (x : S1x1x128x64.Idx) (k : S2x512x8x64.Idx)
    (h0 : (k 0).val = win0_1.index t (0 : Fin 4)) (h1 : (k 2).val = win0_1.index t (1 : Fin 4))
    (h2 : (k 1).val = win0_1.index t (2 : Fin 4) * 128 + (x 2).val) (h3 : (k 3).val = win0_1.index t (3 : Fin 4) * 64 + (x 3).val) :
    (iblk m c 1 t : Vec Ideal S1x1x128x64 .f32) x = (m ((c : Thread nD τ).loc main_arg1) : S2x512x8x64.Idx → EReal) k := by
  have hx0 : (x 0).val < 1 := (x 0).isLt
  have hx1 : (x 1).val < 1 := (x 1).isLt
  unfold iblk
  rw [View.read_apply]
  show V m c main_v1 _ = _
  rw [V_k]
  refine transpose_apply _ _ _ _ k (fun a => ?_)
  match a with
  | ⟨0, _⟩ => show (k 0).val = win0_1.index t (0 : Fin 4) * 1 + 1 * (x 0).val; omega
  | ⟨1, _⟩ => show (k 2).val = win0_1.index t (1 : Fin 4) * 1 + 1 * (x 1).val; omega
  | ⟨2, _⟩ => show (k 1).val = win0_1.index t (2 : Fin 4) * 128 + 1 * (x 2).val; omega
  | ⟨3, _⟩ => show (k 3).val = win0_1.index t (3 : Fin 4) * 64 + 1 * (x 3).val; omega

/-- What point `t` writes back is block `t` of `attn q k`: the block's entry at (key row `y 2`, query row `y 3`) is the
    score of key position `128·kt + y 2` and query position `128·qt + y 3` of the point's batch and head. -/
theorem flushed_eq (c : Dev nD) (t : Fin cfg0.N) :
    (dats m 0 c).flushed 2 t = ((cfg0.win 2).blk t).view.read (Elt Ideal)
      (attn (m ((c : Thread nD τ).loc main_arg0)) (m ((c : Thread nD τ).loc main_arg1))) := by
  rw [Value.flushed2]
  obtain ⟨e0, e1, e2, e3, f0, f1, f2, f3, -, -, -, -⟩ := idx_facts t
  refine funext fun (y : S1x1x128x128.Idx) => ?_
  have hy0 : (y 0).val < 1 := (y 0).isLt
  have hy1 : (y 1).val < 1 := (y 1).isLt
  show out0_2 (iblk m c 0 t) (iblk m c 1 t) y = attn _ _ (((cfg0.win 2).blk t).view.emb y)
  refine (congrArg (out0_2 (iblk m c 0 t) (iblk m c 1 t)) (eq_ix4 y)).trans ((out_apply _ _ _ _ _ _).trans ?_)
  unfold attn score
  refine congrArg (_ * ·) (Finset.sum_congr rfl fun d _ => ?_)
  congr 1
  · refine qblk_apply m c t _ _ ?_ ?_ ?_ ?_
    · show win0_2.index t (0 : Fin 4) * 1 + 1 * (y 0).val = win0_0.index t (0 : Fin 4); omega
    · show win0_2.index t (1 : Fin 4) * 1 + 1 * (y 1).val = win0_0.index t (1 : Fin 4); omega
    · show win0_2.index t (3 : Fin 4) * 128 + 1 * (y 3).val = win0_0.index t (2 : Fin 4) * 128 + (y 3).val; omega
    · show d.val = win0_0.index t (3 : Fin 4) * 64 + d.val; omega
  · refine kblk_apply m c t _ _ ?_ ?_ ?_ ?_
    · show win0_2.index t (0 : Fin 4) * 1 + 1 * (y 0).val = win0_1.index t (0 : Fin 4); omega
    · show win0_2.index t (1 : Fin 4) * 1 + 1 * (y 1).val = win0_1.index t (1 : Fin 4); omega
    · show win0_2.index t (2 : Fin 4) * 128 + 1 * (y 2).val = win0_1.index t (2 : Fin 4) * 128 + (y 2).val; omega
    · show d.val = win0_1.index t (3 : Fin 4) * 64 + d.val; omega

/-- An index of the result is in point `t`'s block iff each coordinate lies in the block's range on its axis. -/
theorem mem_blk (t : Fin cfg0.N) (i : S2x8x512x512.Idx) :
    i ∈ ((cfg0.win 2).blk t).view.set ↔ ∀ a : Fin 4, win0_2.index t a * S1x1x128x128.size a ≤ (i a).val
      ∧ (i a).val < win0_2.index t a * S1x1x128x128.size a + S1x1x128x128.size a := by
  show i ∈ ((View.whole main_v2).slice (win0_2.rect t)).set ↔ _
  rw [View.set_slice_whole, Rect.mem_set_unit]
  exact Iff.rfl

/-- The blocks tile the result: index `(b, h, j, i)` lies in the block of the point with block coordinates
    `(b, h, j / 128, i / 128)`. -/
theorem covered (i : S2x8x512x512.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 512 := (i 2).isLt
  have hi3 : (i 3).val < 512 := (i 3).isLt
  obtain ⟨t, ht⟩ := idx_onto ⟨(i 0).val, hi0⟩ ⟨(i 1).val, hi1⟩ ⟨(i 2).val / 128, by omega⟩ ⟨(i 3).val / 128, by omega⟩
  have q0 : win0_2.index t (0 : Fin 4) = (i 0).val := congrFun ht 0
  have q1 : win0_2.index t (1 : Fin 4) = (i 1).val := congrFun ht 1
  have q2 : win0_2.index t (2 : Fin 4) = (i 2).val / 128 := congrFun ht 2
  have q3 : win0_2.index t (3 : Fin 4) = (i 3).val / 128 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- So the result array ends as `attn q k`. -/
theorem final (c : Dev nD) : (dats m 0 c).arrAt 2 cfg0.N
    = attn (m ((c : Thread nD τ).loc main_arg0)) (m ((c : Thread nD τ).loc main_arg1)) :=
  (dats m 0 c).arrAt_eq_of_cover 2 (attn (m ((c : Thread nD τ).loc main_arg0)) (m ((c : Thread nD τ).loc main_arg1)))
    (fun t _ => flushed_eq m c t) covered

/-- The kernel's run, read: the result array at `attn` of the arguments, the arguments unchanged. -/
theorem run : θ_run defs (onTc (τ := τ) (main (F := Ideal))) ⟨m, fun _ => 0, ρ⟩ fun r => ∀ c : Dev nD,
      r.2.mem ((c : Thread nD τ).loc main_v2)
        = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.L1Attn

end
-- ==== Proof.lean ====
/-
  L1 attention scores: a tiled kernel against its jnp reference, equal over the extended reals.

  Both programs take `q` and `k`, laid out [batch, position, head, feature] = [2, 512, 8, 64], and return the array
  [batch, head, key position, query position] = [2, 8, 512, 512] whose entry at `(b, h, j, i)` is

      -1/8 · ∑_{d < 64} |q[b, i, h, d] − k[b, j, h, d]|            (`Cert.L1Attn.attn`, Proof/Scores.lean).

  The reference broadcasts both arguments to [2, 512, 512, 8, 64], subtracts, takes absolute values, sums the last
  axis from `0`, scales and transposes; read one operation at a time that is `attn q k` (Proof/RefScores.lean). The
  kernel first transposes the arguments to head-major order on the host, then runs a [2, 8, 4, 4] grid: point
  `(b, h, kt, qt)` loads a [128, 64] block of query rows and one of key rows, forms all 128 × 128 × 64 differences by
  two broadcasts, and writes the [128, 128] block of scaled sums (Proof/Block.lean); the blocks tile the result, so
  the result array ends as `attn q k` as well (Proof/Array.lean). No law of arithmetic is needed beyond `0 + x = x`:
  the two sums run over the same 64 terms in the same order and the scale is the same f32 word on both sides, so the
  finiteness of the inputs is not used. The ideal pass rewrote nothing, so `preserves` is `True`; the three frames
  are the generated ones.
-/
import proofs.«145143_j36859409334845_1_alg».proof.Defs
import proofs.«145143_j36859409334845_1_alg».proof.Proof.Gen.Kernel
import proofs.«145143_j36859409334845_1_alg».proof.Proof.Gen.Kernel.Skeleton
import proofs.«145143_j36859409334845_1_alg».proof.Proof.Gen.Kernel.Launch
import proofs.«145143_j36859409334845_1_alg».proof.Proof.Gen.Kernel.Points
import proofs.«145143_j36859409334845_1_alg».proof.Proof.Gen.Kernel.Frame
import proofs.«145143_j36859409334845_1_alg».proof.Proof.Gen.KernelIdeal
import proofs.«145143_j36859409334845_1_alg».proof.Proof.Gen.KernelIdeal.Skeleton
import proofs.«145143_j36859409334845_1_alg».proof.Proof.Gen.KernelIdeal.Launch
import proofs.«145143_j36859409334845_1_alg».proof.Proof.Gen.KernelIdeal.Points
import proofs.«145143_j36859409334845_1_alg».proof.Proof.Gen.KernelIdeal.Frame
import proofs.«145143_j36859409334845_1_alg».proof.Proof.Gen.ReferenceIdeal
import proofs.«145143_j36859409334845_1_alg».proof.Proof.Gen.Pre_finite_inputs
import proofs.«145143_j36859409334845_1_alg».proof.Proof.Gen.KernelIdeal.Value
import proofs.«145143_j36859409334845_1_alg».proof.Proof.Gen.ReferenceIdeal.Run
import proofs.«145143_j36859409334845_1_alg».proof.Proof.Gen.ReferenceIdeal.Read
import Idealize.ShloMosaic.Adequacy
import Idealize.ShloMosaic.Init
import proofs.«145143_j36859409334845_1_alg».proof.Proof.RefScores
import proofs.«145143_j36859409334845_1_alg».proof.Proof.Array

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `q` and `k`, both programs end with the result array at `attn q k`. -/
theorem algebraic : Cert.algebraic_KernelIdeal_ReferenceIdeal := by
  intro m ρ m' ρ' _ hagree
  refine ⟨fun c => Cert.L1Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.L1Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.L1Attn.ref_attn, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
